-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64x128 .f32) (main_arg6 : FVec F S64 .f32) (main_arg7 : FVec F S64x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S64x128 .f32 := Host.absf main_arg5
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x128 .f32 := Host.absf main_arg7
  let main_cst_10 : FVec F S_ .f32 := constant S_ .f32 0x7F800000#32
  let main_v30 : FVec F S64x128 .f32 := broadcastInDim S64x128 ![] bcast_S_S64x128 main_cst_10
  let main_v31 : IVec S64x128 1 := cmpf .olt main_v29 main_v30
  let main_c_11 : IVec S_ 1 := constantI S_ 1 1#1
  let main_v32 : IVec S_ 1 := (fun x v => Host.reduce IntOp.andi x v reducesTo_S64x128_S_d0_1 h_S_) main_v31 main_c_11
  let main_v33 : IVec S_ 1 := andi main_v28 main_v32
  main_v33

def fn {F : FTy → Type} [FloatOps F] (main_arg0 : FVec F S50000x128 .f32) (main_arg1 : IVec S2x600000 32) (main_arg2 : FVec F S128x128 .f32) (main_arg3 : FVec F S128 .f32) (main_arg4 : FVec F S128x128 .f32) (main_arg5 : FVec F S64x128 .f32) (main_arg6 : FVec F S64 .f32) (main_arg7 : FVec F S64x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S50000x1 : Shape := ⟨2, ![50000, 1]⟩
abbrev S600000x128 : Shape := ⟨2, ![600000, 128]⟩
abbrev S1x128 : Shape := ⟨2, ![1, 128]⟩
abbrev S5000x128 : Shape := ⟨2, ![5000, 128]⟩
abbrev S128x64 : Shape := ⟨2, ![128, 64]⟩
abbrev S1x64 : Shape := ⟨2, ![1, 64]⟩
abbrev S50000x64 : Shape := ⟨2, ![50000, 64]⟩
abbrev S5000x64 : Shape := ⟨2, ![5000, 64]⟩

abbrev nBuf : Space → Nat
  | .hbm => 59
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S64x128, .f32⟩
  | .hbm, ⟨6, _⟩ => ⟨S64, .f32⟩
  | .hbm, ⟨7, _⟩ => ⟨S64x128, .f32⟩
  | .hbm, ⟨8, _⟩ => ⟨S1x600000, .i32⟩
  | .hbm, ⟨9, _⟩ => ⟨S600000, .i32⟩
  | .hbm, ⟨10, _⟩ => ⟨S1x600000, .i32⟩
  | .hbm, ⟨11, _⟩ => ⟨S600000, .i32⟩
  | .hbm, ⟨12, _⟩ => ⟨S_, .f32⟩
  | .hbm, ⟨13, _⟩ => ⟨S600000x1, .f32⟩
  | .hbm, ⟨14, _⟩ => ⟨S_, .f32⟩
  | .hbm, ⟨15, _⟩ => ⟨S50000x1, .f32⟩
  | .hbm, ⟨16, _⟩ => ⟨S600000x1, .i32⟩
  | .hbm, ⟨17, _⟩ => ⟨S50000x1, .f32⟩
  | .hbm, ⟨18, _⟩ => ⟨S_, .f32⟩
  | .hbm, ⟨19, _⟩ => ⟨S50000x1, .f32⟩
  | .hbm, ⟨20, _⟩ => ⟨S50000x1, .f32⟩
  | .hbm, ⟨21, _⟩ => ⟨S_, .i32⟩
  | .hbm, ⟨22, _⟩ => ⟨S600000, .i32⟩
  | .hbm, ⟨23, _⟩ => ⟨S600000, .i1⟩
  | .hbm, ⟨24, _⟩ => ⟨S_, .i32⟩
  | .hbm, ⟨25, _⟩ => ⟨S600000, .i32⟩
  | .hbm, ⟨26, _⟩ => ⟨S600000, .i32⟩
  | .hbm, ⟨27, _⟩ => ⟨S600000, .i32⟩
  | .hbm, ⟨28, _⟩ => ⟨S600000x1, .i32⟩
  | .hbm, ⟨29, _⟩ => ⟨S600000x128, .f32⟩
  | .hbm, ⟨30, _⟩ => ⟨S_, .f32⟩
  | .hbm, ⟨31, _⟩ => ⟨S50000x128, .f32⟩
  | .hbm, ⟨32, _⟩ => ⟨S600000x1, .i32⟩
  | .hbm, ⟨33, _⟩ => ⟨S50000x128, .f32⟩
  | .hbm, ⟨34, _⟩ => ⟨S50000x128, .f32⟩
  | .hbm, ⟨35, _⟩ => ⟨S50000x128, .f32⟩
  | .hbm, ⟨36, _⟩ => ⟨S128x128, .f32⟩
  | .hbm, ⟨37, _⟩ => ⟨S128x128, .f32⟩
  | .hbm, ⟨38, _⟩ => ⟨S1x128, .f32⟩
  | .hbm, ⟨39, _⟩ => ⟨S50000x128, .f32⟩
  | .hbm, ⟨40, _⟩ => ⟨S_, .i32⟩
  | .hbm, ⟨41, _⟩ => ⟨S600000, .i32⟩
  | .hbm, ⟨42, _⟩ => ⟨S600000, .i1⟩
  | .hbm, ⟨43, _⟩ => ⟨S_, .i32⟩
  | .hbm, ⟨44, _⟩ => ⟨S600000, .i32⟩
  | .hbm, ⟨45, _⟩ => ⟨S600000, .i32⟩
  | .hbm, ⟨46, _⟩ => ⟨S600000, .i32⟩
  | .hbm, ⟨47, _⟩ => ⟨S600000x1, .i32⟩
  | .hbm, ⟨48, _⟩ => ⟨S600000x128, .f32⟩
  | .hbm, ⟨49, _⟩ => ⟨S_, .f32⟩
  | .hbm, ⟨50, _⟩ => ⟨S50000x128, .f32⟩
  | .hbm, ⟨51, _⟩ => ⟨S600000x1, .i32⟩
  | .hbm, ⟨52, _⟩ => ⟨S50000x128, .f32⟩
  | .hbm, ⟨53, _⟩ => ⟨S50000x128, .f32⟩
  | .hbm, ⟨54, _⟩ => ⟨S50000x128, .f32⟩
  | .hbm, ⟨55, _⟩ => ⟨S128x64, .f32⟩
  | .hbm, ⟨56, _⟩ => ⟨S128x64, .f32⟩
  | .hbm, ⟨57, _⟩ => ⟨S1x64, .f32⟩
  | .hbm, ⟨58, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x64, .f32⟩
  | .local _ .vmem, ⟨14, _⟩ => ⟨S1x64, .f32⟩
  | .local _ .vmem, ⟨15, _⟩ => ⟨S128x64, .f32⟩
  | .local _ .vmem, ⟨16, _⟩ => ⟨S5000x64, .f32⟩
  | .local _ .vmem, ⟨17, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_c : Ref sig .tc := ⟨.hbm, 21, rfl⟩
abbrev main_v10 : Ref sig .tc := ⟨.hbm, 22, rfl⟩
abbrev main_v11 : Ref sig .tc := ⟨.hbm, 23, rfl⟩
abbrev main_c_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c_4 : Ref sig .tc := ⟨.hbm, 40, rfl⟩
abbrev main_v26 : Ref sig .tc := ⟨.hbm, 41, rfl⟩
abbrev main_v27 : Ref sig .tc := ⟨.hbm, 42, rfl⟩
abbrev main_c_5 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_6 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000x1 : S_.BroadcastsInDim S600000x1 (![] : Fin 0 → Fin S600000x1.rank)
  bcast_S_S50000x1 : S_.BroadcastsInDim S50000x1 (![] : Fin 0 → Fin S50000x1.rank)
  bcast_S600000_S600000x1_0 : S600000.BroadcastsInDim S600000x1 (![0] : Fin 1 → Fin S600000x1.rank)
  bcast_S_S600000 : S_.BroadcastsInDim S600000 (![] : Fin 0 → Fin S600000.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  transposes_S64x128_S128x64_1_0 : S64x128.Transposes [1, 0] S128x64
  shapeCasts_S64_S1x64 : S64.ShapeCasts S1x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S50000x1_S600000x1_S600000x1_1_0_0_1_wf : ScatterDims.WF S50000x1 S600000x1 S600000x1 [1] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x64.size a ≤ S128x64.size a
  hwx1_4 : ∀ i : grid1.Coords, EltTy.bits .f32 = 32 ∨ (Rect.block (s := S128x64) S128x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S50000x64.size a
  hwx1_5 : ∀ i : grid1.Coords, EltTy.bits .f32 = 32 ∨ (Rect.block (s := S50000x64) S5000x64.size (cc1_transform_5 i) (hinb1_5 i)).WholeWords (EltTy.packing .f32)

variable [Facts₀]

def scatter_S50000x1_S600000x1_S600000x1_1_0_0_1 : ScatterDims S50000x1 S600000x1 S600000x1 where
  updateWindowDims := [1]
  insertedWindowDims := [0]
  scatterDimsToOperandDims := [0]
  indexVectorDim := 1
  wf := scatter_S50000x1_S600000x1_S600000x1_1_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v21) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v37) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v38) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v40) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v39) S128x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000x1 : Shape := ⟨2, ![50000, 1]⟩
abbrev S1x128 : Shape := ⟨2, ![1, 128]⟩
abbrev S128x64 : Shape := ⟨2, ![128, 64]⟩
abbrev S50000x64 : Shape := ⟨2, ![50000, 64]⟩
abbrev S1x64 : Shape := ⟨2, ![1, 64]⟩

abbrev nBuf : Space → Nat
  | .hbm => 79
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S64x128, .f32⟩
  | .hbm, ⟨6, _⟩ => ⟨S64, .f32⟩
  | .hbm, ⟨7, _⟩ => ⟨S64x128, .f32⟩
  | .hbm, ⟨8, _⟩ => ⟨S1x600000, .i32⟩
  | .hbm, ⟨9, _⟩ => ⟨S600000, .i32⟩
  | .hbm, ⟨10, _⟩ => ⟨S1x600000, .i32⟩
  | .hbm, ⟨11, _⟩ => ⟨S600000, .i32⟩
  | .hbm, ⟨12, _⟩ => ⟨S_, .i32⟩
  | .hbm, ⟨13, _⟩ => ⟨S600000, .i32⟩
  | .hbm, ⟨14, _⟩ => ⟨S600000, .i1⟩
  | .hbm, ⟨15, _⟩ => ⟨S_, .i32⟩
  | .hbm, ⟨16, _⟩ => ⟨S600000, .i32⟩
  | .hbm, ⟨17, _⟩ => ⟨S600000, .i32⟩
  | .hbm, ⟨18, _⟩ => ⟨S600000, .i32⟩
  | .hbm, ⟨19, _⟩ => ⟨S600000x1, .i32⟩
  | .hbm, ⟨20, _⟩ => ⟨S600000x128, .f32⟩
  | .hbm, ⟨21, _⟩ => ⟨S_, .f32⟩
  | .hbm, ⟨22, _⟩ => ⟨S50000x128, .f32⟩
  | .hbm, ⟨23, _⟩ => ⟨S600000x1, .i32⟩
  | .hbm, ⟨24, _⟩ => ⟨S50000x128, .f32⟩
  | .hbm, ⟨25, _⟩ => ⟨S_, .f32⟩
  | .hbm, ⟨26, _⟩ => ⟨S600000x1, .f32⟩
  | .hbm, ⟨27, _⟩ => ⟨S_, .f32⟩
  | .hbm, ⟨28, _⟩ => ⟨S50000x1, .f32⟩
  | .hbm, ⟨29, _⟩ => ⟨S600000x1, .i32⟩
  | .hbm, ⟨30, _⟩ => ⟨S50000x1, .f32⟩
  | .hbm, ⟨31, _⟩ => ⟨S_, .f32⟩
  | .hbm, ⟨32, _⟩ => ⟨S50000x1, .f32⟩
  | .hbm, ⟨33, _⟩ => ⟨S50000x1, .f32⟩
  | .hbm, ⟨34, _⟩ => ⟨S50000x128, .f32⟩
  | .hbm, ⟨35, _⟩ => ⟨S50000x128, .f32⟩
  | .hbm, ⟨36, _⟩ => ⟨S128x128, .f32⟩
  | .hbm, ⟨37, _⟩ => ⟨S50000x128, .f32⟩
  | .hbm, ⟨38, _⟩ => ⟨S1x128, .f32⟩
  | .hbm, ⟨39, _⟩ => ⟨S50000x128, .f32⟩
  | .hbm, ⟨40, _⟩ => ⟨S50000x128, .f32⟩
  | .hbm, ⟨41, _⟩ => ⟨S128x128, .f32⟩
  | .hbm, ⟨42, _⟩ => ⟨S50000x128, .f32⟩
  | .hbm, ⟨43, _⟩ => ⟨S50000x128, .f32⟩
  | .hbm, ⟨44, _⟩ => ⟨S_, .f32⟩
  | .hbm, ⟨45, _⟩ => ⟨S50000x128, .f32⟩
  | .hbm, ⟨46, _⟩ => ⟨S50000x128, .f32⟩
  | .hbm, ⟨47, _⟩ => ⟨S_, .i32⟩
  | .hbm, ⟨48, _⟩ => ⟨S600000, .i32⟩
  | .hbm, ⟨49, _⟩ => ⟨S600000, .i1⟩
  | .hbm, ⟨50, _⟩ => ⟨S_, .i32⟩
  | .hbm, ⟨51, _⟩ => ⟨S600000, .i32⟩
  | .hbm, ⟨52, _⟩ => ⟨S600000, .i32⟩
  | .hbm, ⟨53, _⟩ => ⟨S600000, .i32⟩
  | .hbm, ⟨54, _⟩ => ⟨S600000x1, .i32⟩
  | .hbm, ⟨55, _⟩ => ⟨S600000x128, .f32⟩
  | .hbm, ⟨56, _⟩ => ⟨S_, .f32⟩
  | .hbm, ⟨57, _⟩ => ⟨S50000x128, .f32⟩
  | .hbm, ⟨58, _⟩ => ⟨S600000x1, .i32⟩
  | .hbm, ⟨59, _⟩ => ⟨S50000x128, .f32⟩
  | .hbm, ⟨60, _⟩ => ⟨S_, .f32⟩
  | .hbm, ⟨61, _⟩ => ⟨S600000x1, .f32⟩
  | .hbm, ⟨62, _⟩ => ⟨S_, .f32⟩
  | .hbm, ⟨63, _⟩ => ⟨S50000x1, .f32⟩
  | .hbm, ⟨64, _⟩ => ⟨S600000x1, .i32⟩
  | .hbm, ⟨65, _⟩ => ⟨S50000x1, .f32⟩
  | .hbm, ⟨66, _⟩ => ⟨S_, .f32⟩
  | .hbm, ⟨67, _⟩ => ⟨S50000x1, .f32⟩
  | .hbm, ⟨68, _⟩ => ⟨S50000x1, .f32⟩
  | .hbm, ⟨69, _⟩ => ⟨S50000x128, .f32⟩
  | .hbm, ⟨70, _⟩ => ⟨S50000x128, .f32⟩
  | .hbm, ⟨71, _⟩ => ⟨S128x64, .f32⟩
  | .hbm, ⟨72, _⟩ => ⟨S50000x64, .f32⟩
  | .hbm, ⟨73, _⟩ => ⟨S1x64, .f32⟩
  | .hbm, ⟨74, _⟩ => ⟨S50000x64, .f32⟩
  | .hbm, ⟨75, _⟩ => ⟨S50000x64, .f32⟩
  | .hbm, ⟨76, _⟩ => ⟨S128x64, .f32⟩
  | .hbm, ⟨77, _⟩ => ⟨S50000x64, .f32⟩
  | .hbm, ⟨78, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_call0_cst : Ref sig .tc := ⟨.hbm, 44, rfl⟩
abbrev main_call0_v0 : Ref sig .tc := ⟨.hbm, 45, rfl⟩
abbrev main_v30 : Ref sig .tc := ⟨.hbm, 46, rfl⟩
abbrev main_c_4 : Ref sig .tc := ⟨.hbm, 47, rfl⟩
abbrev main_v31 : Ref sig .tc := ⟨.hbm, 48, rfl⟩
abbrev main_v32 : Ref sig .tc := ⟨.hbm, 49, rfl⟩
abbrev main_c_5 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_6 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_7 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_9 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S600000x1 : S_.BroadcastsInDim S600000x1 (![] : Fin 0 → Fin S600000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  transposes_S64x128_S128x64_1_0 : S64x128.Transposes [1, 0] S128x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000x1_S600000x1_S600000x1_1_0_0_1_wf : ScatterDims.WF S50000x1 S600000x1 S600000x1 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000x1_S600000x1_S600000x1_1_0_0_1 : ScatterDims S50000x1 S600000x1 S600000x1 where
  updateWindowDims := [1]
  insertedWindowDims := [0]
  scatterDimsToOperandDims := [0]
  indexVectorDim := 1
  wf := scatter_S50000x1_S600000x1_S600000x1_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KHost.lean ====
/-
  What the host operations around the two regions leave in the arrays the regions read.

  Before the first region the host computes the aggregated mean of the input features (gather by source node,
  scatter-add by destination node, divided by the degree clamped below at one), transposes the two weight matrices
  and reshapes the bias to a row. Between the regions it aggregates the hidden features in the same way, with the
  same degree, transposes the output layer's weights and reshapes its bias. The aggregation is never opened: it is
  the reference's own aggregation stage as a function of the features gathered from, and the two programs'
  texts of it agree operation by operation.
-/
import proofs.«181779_j2972117368898_1_alg».proof.Proof.Gen.KernelIdeal.Frame
import proofs.«181779_j2972117368898_1_alg».proof.Proof.Gen.ReferenceIdeal.Read
import Idealize.ShloMosaic.Lib.StableHlo.Run
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

/-- A bias vector reshaped to a one-row matrix, read in that row. -/
theorem row_of_vec {n : ℕ} (v : (⟨1, ![n]⟩ : Shape).Idx → EReal) (h : (⟨1, ![n]⟩ : Shape).ShapeCasts ⟨2, ![1, n]⟩) (q : Fin n) :
    shapeCast ⟨2, ![1, n]⟩ v h (ix2 0 q) = v (ix1 q) :=
  (shapeCast_addUnit_apply ![n] v h (ix2 0 q)).trans
    (congrArg v (funext fun a => by match a with | ⟨0, _⟩ => rfl))

/-! ## The first region's entry -/

set_option maxHeartbeats 4000000 in
/-- The aggregated input features. -/
theorem V1_mean (c : Dev nD) :
    (V1 m ρ c main_v21 : S50000x128.Idx → Elt Ideal .f32)
      = Cert.ReferenceIdeal.Read.val_main_v21 (F := Ideal) (m ((c : Thread nD τ).loc main_arg0)) (m ((c : Thread nD τ).loc main_arg1)) := by
  dsimp only [V1, W1, hostOps0]
  after_results_simp
  rfl

set_option maxHeartbeats 4000000 in
/-- The input features, untouched. -/
theorem V1_self (c : Dev nD) : V1 m ρ c main_arg0 = m ((c : Thread nD τ).loc main_arg0) := by
  dsimp only [V1, W1, hostOps0]
  after_results_simp

set_option maxHeartbeats 4000000 in
/-- The hidden layer's left weights, transposed. -/
theorem V1_wl (c : Dev nD) :
    (V1 m ρ c main_v22 : S128x128.Idx → Elt Ideal .f32) = Cert.ReferenceIdeal.Read.val_main_v22 (F := Ideal) (m ((c : Thread nD τ).loc main_arg2)) := by
  dsimp only [V1, W1, hostOps0]
  after_results_simp
  rfl

set_option maxHeartbeats 4000000 in
/-- The hidden layer's right weights, transposed. -/
theorem V1_wr (c : Dev nD) :
    (V1 m ρ c main_v23 : S128x128.Idx → Elt Ideal .f32) = Cert.ReferenceIdeal.Read.val_main_v27 (F := Ideal) (m ((c : Thread nD τ).loc main_arg4)) := by
  dsimp only [V1, W1, hostOps0]
  after_results_simp
  rfl

set_option maxHeartbeats 4000000 in
/-- The hidden layer's bias as a row. -/
theorem V1_bias (c : Dev nD) (q : Fin 128) :
    (V1 m ρ c main_v24 : S1x128.Idx → Elt Ideal .f32) (ix2 0 q) = (m ((c : Thread nD τ).loc main_arg3) : S128.Idx → Elt Ideal .f32) (ix1 q) := by
  dsimp only [V1, W1, hostOps0]
  after_results_simp
  exact row_of_vec _ _ q

/-! ## Between the regions: what the first region and the first stretch leave -/

set_option maxHeartbeats 4000000 in
/-- The source nodes. -/
theorem W2_src (c : Dev nD) :
    W2 m ρ c (Proc.devRef .tc main_v1) = Cert.ReferenceIdeal.Read.val_main_v1 (F := Ideal) (m ((c : Thread nD τ).loc main_arg1)) := by
  refine (W2_of_ne m ρ c main_v1 (by decide)).trans ?_
  dsimp only [W1, hostOps0]
  after_results_simp
  rfl

set_option maxHeartbeats 4000000 in
/-- The destination nodes. -/
theorem W2_dst (c : Dev nD) :
    W2 m ρ c (Proc.devRef .tc main_v3) = Cert.ReferenceIdeal.Read.val_main_v3 (F := Ideal) (m ((c : Thread nD τ).loc main_arg1)) := by
  refine (W2_of_ne m ρ c main_v3 (by decide)).trans ?_
  dsimp only [W1, hostOps0]
  after_results_simp
  rfl

set_option maxHeartbeats 4000000 in
/-- The clamped degree. -/
theorem W2_deg (c : Dev nD) :
    W2 m ρ c (Proc.devRef .tc main_v9) = Cert.ReferenceIdeal.Read.val_main_v19 (F := Ideal) (m ((c : Thread nD τ).loc main_arg1)) := by
  refine (W2_of_ne m ρ c main_v9 (by decide)).trans ?_
  dsimp only [W1, hostOps0]
  after_results_simp
  rfl

set_option maxHeartbeats 4000000 in
theorem W2_arg5 (c : Dev nD) : W2 m ρ c (Proc.devRef .tc main_arg5) = m ((c : Thread nD τ).loc main_arg5) := by
  refine (W2_of_ne m ρ c main_arg5 (by decide)).trans ?_
  dsimp only [W1, hostOps0]
  after_results_simp

set_option maxHeartbeats 4000000 in
theorem W2_arg6 (c : Dev nD) : W2 m ρ c (Proc.devRef .tc main_arg6) = m ((c : Thread nD τ).loc main_arg6) := by
  refine (W2_of_ne m ρ c main_arg6 (by decide)).trans ?_
  dsimp only [W1, hostOps0]
  after_results_simp

set_option maxHeartbeats 4000000 in
theorem W2_arg7 (c : Dev nD) : W2 m ρ c (Proc.devRef .tc main_arg7) = m ((c : Thread nD τ).loc main_arg7) := by
  refine (W2_of_ne m ρ c main_arg7 (by decide)).trans ?_
  dsimp only [W1, hostOps0]
  after_results_simp

/-! ## The second region's entry -/

set_option maxHeartbeats 4000000 in
/-- The aggregated hidden features: the same aggregation, of the first region's result. -/
theorem V3_mean (c : Dev nD) :
    (V3 m ρ c main_v37 : S50000x128.Idx → Elt Ideal .f32)
      = Cert.ReferenceIdeal.Read.val_main_v21 (F := Ideal) (W2 m ρ c (Proc.devRef .tc main_v25)) (m ((c : Thread nD τ).loc main_arg1)) := by
  dsimp only [V3, W3, hostOps1]
  after_results_simp
  rw [W2_src, W2_dst, W2_deg]
  rfl

set_option maxHeartbeats 4000000 in
/-- The hidden features, untouched by the second stretch. -/
theorem V3_self (c : Dev nD) : V3 m ρ c main_v25 = W2 m ρ c (Proc.devRef .tc main_v25) := by
  dsimp only [V3, W3, hostOps1]
  after_results_simp

set_option maxHeartbeats 4000000 in
/-- The output layer's left weights, transposed. -/
theorem V3_wl (c : Dev nD) :
    (V3 m ρ c main_v38 : S128x64.Idx → Elt Ideal .f32) = Cert.ReferenceIdeal.Read.val_main_v49 (F := Ideal) (m ((c : Thread nD τ).loc main_arg5)) := by
  dsimp only [V3, W3, hostOps1]
  after_results_simp
  rw [W2_arg5]
  rfl

set_option maxHeartbeats 4000000 in
/-- The output layer's right weights, transposed. -/
theorem V3_wr (c : Dev nD) :
    (V3 m ρ c main_v39 : S128x64.Idx → Elt Ideal .f32) = Cert.ReferenceIdeal.Read.val_main_v54 (F := Ideal) (m ((c : Thread nD τ).loc main_arg7)) := by
  dsimp only [V3, W3, hostOps1]
  after_results_simp
  rw [W2_arg7]
  rfl

set_option maxHeartbeats 4000000 in
/-- The output layer's bias as a row. -/
theorem V3_bias (c : Dev nD) (q : Fin 64) :
    (V3 m ρ c main_v40 : S1x64.Idx → Elt Ideal .f32) (ix2 0 q) = (m ((c : Thread nD τ).loc main_arg6) : S64.Idx → Elt Ideal .f32) (ix1 q) := by
  dsimp only [V3, W3, hostOps1]
  after_results_simp
  rw [W2_arg6]
  exact row_of_vec _ _ q

end Cert.KernelIdeal.Hand

end
-- ==== Proof.LibDense.lean ====
/-
  A plain matrix product read at an entry.

  For dimension numbers that contract the left operand's axis 1 with the right operand's axis 0 and have no batch axis,
  entry (p, q) of an [M × K] by [K × N] product is the sum over k of left (p, k) times right (k, q): for the
  vector unit's product into a zero accumulator and for the host's general dot alike. The hypotheses are the printed
  dimension numbers, each closed by `rfl` at a use.
-/
import Idealize.ShloMosaic.PureOps.Ideal
import Idealize.ShloMosaic.PureOps.Ideal.Laws
import Idealize.ShloMosaic.Lib.ValueIdx

noncomputable section

namespace Cert.LibDense

open Idealize.ShloMosaic Idealize.ShloMosaic.ValueIdx

variable {M K N : ℕ} (d : DotDims ⟨2, ![M, K]⟩ ⟨2, ![K, N]⟩ ⟨2, ![M, N]⟩)

/-- Two coordinates of one index at provably equal positions have one value. -/
private theorem coord_val_congr {s : Shape} (j : s.Idx) (p q : ℕ) (hp : p < s.rank) (hq : q < s.rank) (h : p = q) :
    (j ⟨p, hp⟩).val = (j ⟨q, hq⟩).val := by subst h; rfl

/-- The left operand's row is the result's row. -/
theorem lhs_row (hln : d.lhsNonContracting = [0]) (hlb : d.lhsBatch = [])
    (j : (⟨2, ![M, N]⟩ : Shape).Idx) (k : d.contr.Idx) : (d.lhsIdx j k 0).val = (j 0).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  exact coord_val_congr j _ _ _ _ (by simp [hlb, hln])

/-- The left operand's column is the contraction index. -/
theorem lhs_col (hlc : d.lhsContracting = [1]) (j : (⟨2, ![M, N]⟩ : Shape).Idx) (k : d.contr.Idx) :
    (d.lhsIdx j k 1).val = (k ⟨0, by rw [d.rank_contr, hlc]; exact Nat.one_pos⟩).val :=
  d.lhsIdx_val_of_single hlc j k

/-- The right operand's row is the contraction index. -/
theorem rhs_row (hrc : d.rhsContracting = [0]) (j : (⟨2, ![M, N]⟩ : Shape).Idx) (k : d.contr.Idx) :
    (d.rhsIdx j k 0).val = (k ⟨0, by rw [d.rank_contr, ← d.length_contracting, hrc]; exact Nat.one_pos⟩).val :=
  d.rhsIdx_val_of_single hrc j k

/-- The right operand's column is the result's column. -/
theorem rhs_col (hln : d.lhsNonContracting = [0]) (hrn : d.rhsNonContracting = [1]) (hlb : d.lhsBatch = []) (hrb : d.rhsBatch = [])
    (j : (⟨2, ![M, N]⟩ : Shape).Idx) (k : d.contr.Idx) : (d.rhsIdx j k 1).val = (j 1).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  exact coord_val_congr j _ _ _ _ (by simp [hlb, hln, hrn])

/-- The contraction shape has one axis, of extent K. -/
theorem contr_rank (hlc : d.lhsContracting = [1]) : d.contr.rank = 1 := by rw [d.rank_contr, hlc]; rfl

theorem contr_size (hlc : d.lhsContracting = [1]) :
    d.contr.size ⟨0, by rw [contr_rank d hlc]; exact Nat.one_pos⟩ = K := by
  have h := d.size_contr 0 (by rw [hlc]; exact Nat.one_pos)
  rw [h]
  simp [hlc]

/-- The sum over the contraction index is the sum over k of left (p, k) · right (k, q). -/
theorem sum_contr (hlc : d.lhsContracting = [1]) (hrc : d.rhsContracting = [0]) (hln : d.lhsNonContracting = [0])
    (hrn : d.rhsNonContracting = [1]) (hlb : d.lhsBatch = []) (hrb : d.rhsBatch = [])
    (x : (⟨2, ![M, K]⟩ : Shape).Idx → EReal) (w : (⟨2, ![K, N]⟩ : Shape).Idx → EReal) (p : Fin M) (q : Fin N) :
    ∑ k : d.contr.Idx, x (d.lhsIdx (ix2 p q) k) * w (d.rhsIdx (ix2 p q) k) = ∑ kk : Fin K, x (ix2 p kk) * w (ix2 kk q) := by
  rw [← Equiv.sum_comp (contrEquiv1 d K (contr_rank d hlc) (contr_size d hlc)).symm]
  refine Finset.sum_congr rfl fun kk _ => ?_
  have hk := contrEquiv1_symm_val d K (contr_rank d hlc) (contr_size d hlc) kk
  have el : d.lhsIdx (ix2 p q) ((contrEquiv1 d K (contr_rank d hlc) (contr_size d hlc)).symm kk) = ix2 p kk := by
    funext a; apply Fin.ext
    match a with
    | ⟨0, _⟩ => exact lhs_row d hln hlb _ _
    | ⟨1, _⟩ => exact (lhs_col d hlc _ _).trans hk
  have er : d.rhsIdx (ix2 p q) ((contrEquiv1 d K (contr_rank d hlc) (contr_size d hlc)).symm kk) = ix2 kk q := by
    funext a; apply Fin.ext
    match a with
    | ⟨0, _⟩ => exact (rhs_row d hrc _ _).trans hk
    | ⟨1, _⟩ => exact rhs_col d hln hrn hlb hrb _ _
  rw [el, er]

/-- The vector unit's product into a zero accumulator, read at (p, q). -/
theorem matmul_zero_apply {φ₁ φ₂ : FTy} (prec : Option ContractPrecision)
    (hlc : d.lhsContracting = [1]) (hrc : d.rhsContracting = [0]) (hln : d.lhsNonContracting = [0])
    (hrn : d.rhsNonContracting = [1]) (hlb : d.lhsBatch = []) (hrb : d.rhsBatch = [])
    (x : FVec Ideal ⟨2, ![M, K]⟩ φ₁) (w : FVec Ideal ⟨2, ![K, N]⟩ φ₂) (p : Fin M) (q : Fin N) :
    FloatOps.matmul d prec x w (constant ⟨2, ![M, N]⟩ .f32 0x00000000#32) (ix2 p q) = ∑ kk : Fin K, x (ix2 p kk) * w (ix2 kk q) := by
  rw [Ideal.matmul_constant_zero_apply]
  exact sum_contr d hlc hrc hln hrn hlb hrb x w p q

/-- The vector unit's product into any accumulator, read at (p, q). -/
theorem matmul_acc_apply {φ₁ φ₂ : FTy} (prec : Option ContractPrecision)
    (hlc : d.lhsContracting = [1]) (hrc : d.rhsContracting = [0]) (hln : d.lhsNonContracting = [0])
    (hrn : d.rhsNonContracting = [1]) (hlb : d.lhsBatch = []) (hrb : d.rhsBatch = [])
    (x : FVec Ideal ⟨2, ![M, K]⟩ φ₁) (w : FVec Ideal ⟨2, ![K, N]⟩ φ₂) (acc : FVec Ideal ⟨2, ![M, N]⟩ .f32) (p : Fin M) (q : Fin N) :
    FloatOps.matmul d prec x w acc (ix2 p q) = acc (ix2 p q) + ∑ kk : Fin K, x (ix2 p kk) * w (ix2 kk q) := by
  rw [Ideal.matmul_apply]
  exact congrArg (acc (ix2 p q) + ·) (sum_contr d hlc hrc hln hrn hlb hrb x w p q)

/-- The host's general dot, read at (p, q). -/
theorem dotGeneral_apply {φ₁ φ₂ : FTy} (prec : Option ContractPrecision) (sched : HostSchedule)
    (hlc : d.lhsContracting = [1]) (hrc : d.rhsContracting = [0]) (hln : d.lhsNonContracting = [0])
    (hrn : d.rhsNonContracting = [1]) (hlb : d.lhsBatch = []) (hrb : d.rhsBatch = [])
    (x : FVec Ideal ⟨2, ![M, K]⟩ φ₁) (w : FVec Ideal ⟨2, ![K, N]⟩ φ₂) (p : Fin M) (q : Fin N) :
    FloatOps.dotGeneral d prec sched x w (ix2 p q) = ∑ kk : Fin K, x (ix2 p kk) * w (ix2 kk q) := by
  rw [Ideal.dotGeneral_apply]
  exact sum_contr d hlc hrc hln hrn hlb hrb x w p q

end Cert.LibDense

end
-- ==== Proof.Layer.lean ====
/-
  One GraphSAGE layer's dense stage, as a function of whole arrays, entry by entry.

  For a node r and an output feature j the layer gives
      post ( ( Σ_k mean[r,k] · wl[k,j]  +  Σ_k xs[r,k] · wr[k,j] )  +  b[j] ),
  where `mean` is the aggregated neighbourhood feature, `xs` the node's own feature, `wl` and `wr` the two
  weight matrices already transposed to [128, D], and `b` the bias. `post` is the rectifier for the hidden
  layer and the identity for the output layer. All arithmetic is that of the extended reals, where addition
  is commutative and associative, so the order in which the bias and the two products are added is immaterial.
-/
import Idealize.ShloMosaic.PureOps.Ideal
import Idealize.ShloMosaic.Lib.ValueIdx

noncomputable section

namespace Cert.Sage

open Idealize.ShloMosaic Idealize.ShloMosaic.ValueIdx

/-- A rank-2 array of extended reals of extents a × b. -/
abbrev Arr (a b : ℕ) : Type := (⟨2, ![a, b]⟩ : Shape).Idx → EReal

/-- The rectifier: the larger of the value and the zero word's value. -/
def relu (v : EReal) : EReal := max v (Ideal.ofBits .f32 0x00000000#32)

/-- The layer's dense stage at entry (r, j), over coordinates. -/
def cell (D : ℕ) (post : EReal → EReal) (mean xs : Arr 50000 128) (wl : Arr 128 D) (b : Fin D → EReal) (wr : Arr 128 D)
    (r : Fin 50000) (j : Fin D) : EReal :=
  post ((∑ k : Fin 128, mean (ix2 r k) * wl (ix2 k j) + ∑ k : Fin 128, xs (ix2 r k) * wr (ix2 k j)) + b j)

/-- The layer's dense stage as a whole array. -/
def layer (D : ℕ) (post : EReal → EReal) (mean xs : Arr 50000 128) (wl : Arr 128 D) (b : Fin D → EReal) (wr : Arr 128 D) :
    Arr 50000 D :=
  fun i => cell D post mean xs wl b wr (i 0) (i 1)

theorem layer_apply (D : ℕ) (post : EReal → EReal) (mean xs : Arr 50000 128) (wl : Arr 128 D) (b : Fin D → EReal) (wr : Arr 128 D)
    (r : Fin 50000) (j : Fin D) : layer D post mean xs wl b wr (ix2 r j) = cell D post mean xs wl b wr r j := rfl

/-- Adding the bias before or after the second product gives the same extended real. -/
theorem bias_last (p q b : EReal) : (p + b) + q = (p + q) + b := add_right_comm p b q

end Cert.Sage

end
-- ==== Proof.KBody.lean ====
/-
  What one grid point's body stores, read at an entry.

  The body loads a 5000-row block of the aggregated features and of the node features, the two weight matrices and
  the bias row, and stores (rows · wl + rows' · wr) + bias, rectified in the hidden layer. A change of float format
  is the identity on extended reals and a product into a zero accumulator is the plain sum over the contracted index,
  so entry (p, q) of the stored block is the layer's formula over the loaded blocks.
-/
import proofs.«181779_j2972117368898_1_alg».proof.Proof.Gen.KernelIdeal.Skeleton
import proofs.«181779_j2972117368898_1_alg».proof.Proof.LibDense
import proofs.«181779_j2972117368898_1_alg».proof.Proof.Layer
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.ValueIdx

/-- The hidden layer's stored block at (p, q). -/
theorem pay0_apply (x0 x1 : Vec Ideal S5000x128 .f32) (wl wr : Vec Ideal S128x128 .f32) (b : Vec Ideal S1x128 .f32)
    (p : Fin 5000) (q : Fin 128) :
    k0_pay1 (F := Ideal) x0 x1 wl wr b (ix2 p q)
      = Cert.Sage.relu ((∑ k : Fin 128, x0 (ix2 p k) * wl (ix2 k q) + ∑ k : Fin 128, x1 (ix2 p k) * wr (ix2 k q)) + b (ix2 0 q)) := by
  unfold k0_pay1 Cert.Sage.relu
  -- a cast to the same shape is the identity
  simp only [shapeCast_self]
  -- the maximum with the zero word, of (product + product) + bias row: entrywise, piece by piece; a change of float
  -- format is the identity on extended reals, so each product into the zero accumulator is the plain sum over k
  refine congrArg₂ max (congrArg₂ (· + ·) (congrArg₂ (· + ·) ?_ ?_) ?_) rfl
  · exact Cert.LibDense.matmul_zero_apply dot_S5000x128_S128x128_S5000x128_1_0_0_1_n_n none rfl rfl rfl rfl rfl rfl _ _ p q
  · exact Cert.LibDense.matmul_zero_apply dot_S5000x128_S128x128_S5000x128_1_0_0_1_n_n none rfl rfl rfl rfl rfl rfl _ _ p q
  · exact broadcastTo_1b_ab_apply b _ p q

/-- The output layer's stored block at (p, q). -/
theorem pay1_apply (x0 x1 : Vec Ideal S5000x128 .f32) (wl wr : Vec Ideal S128x64 .f32) (b : Vec Ideal S1x64 .f32)
    (p : Fin 5000) (q : Fin 64) :
    k1_pay1 (F := Ideal) x0 x1 wl wr b (ix2 p q)
      = (∑ k : Fin 128, x0 (ix2 p k) * wl (ix2 k q) + ∑ k : Fin 128, x1 (ix2 p k) * wr (ix2 k q)) + b (ix2 0 q) := by
  unfold k1_pay1
  -- a cast to the same shape is the identity
  simp only [shapeCast_self]
  -- (product + product) + bias row, entrywise; each product into the zero accumulator is the plain sum over k, and
  -- the one bias row broadcast over the 5000 rows reads its entry q at every row
  refine congrArg₂ (· + ·) (congrArg₂ (· + ·) ?_ ?_) ?_
  · exact Cert.LibDense.matmul_zero_apply dot_S5000x128_S128x64_S5000x64_1_0_0_1_n_n none rfl rfl rfl rfl rfl rfl _ _ p q
  · exact Cert.LibDense.matmul_zero_apply dot_S5000x128_S128x64_S5000x64_1_0_0_1_n_n none rfl rfl rfl rfl rfl rfl _ _ p q
  · exact broadcastTo_1b_ab_apply b _ p q

end Cert.KernelIdeal.Hand

end
-- ==== Proof.Region0.lean ====
/-
  Region 0's result array as one function of the arrays the region finds.

  The grid has ten points; point t reads rows 5000·t … 5000·t + 4999 of the aggregated features and of the node
  features, the whole of both weight matrices and of the bias row, and writes back rows 5000·t … 5000·t + 4999 of the
  result. The ten written blocks tile the result array, so after the region the array holds the layer's dense stage
  of the entry arrays, entry by entry.

  The steps. (1) The block index of every window at every point, decided once over the ten points: the two feature
  windows and the result window are at block (t, 0), the weight windows and the bias window at block (0, 0). (2) An
  entry of a block is the array's entry at block index × block extent + the entry's coordinate inside the block, axis
  by axis; so entry (p, k) of a feature block is the array's entry (5000·t + p, k), and a weight or bias block is its
  whole array. (3) What point t stores is, at (p, q), the layer's formula over its blocks; rewriting each block entry by
  (2) gives the layer's dense stage at (5000·t + p, q), which is the entry of the result array under (p, q) of the
  result block. (4) Row r of the result array lies in the block of point r / 5000, so the ten blocks cover the array,
  and an array whose every written block is the block of one function ends holding that function.
-/
import proofs.«181779_j2972117368898_1_alg».proof.Proof.Gen.KernelIdeal.Frame
import proofs.«181779_j2972117368898_1_alg».proof.Proof.KBody
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The offsets of a whole-block rectangle are zero on both axes. -/
theorem zeroOffsets0 : (![0, 0] : Fin 2 → Nat) = fun _ => 0 := funext fun a => by fin_cases a <;> rfl

/-- The block index of each window at each of the ten points: the feature windows and the result window sit at
    block (t, 0); the two weight windows and the bias window at block (0, 0). -/
theorem blockIndex0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Entry (p, k) of the aggregated-feature block at point t is entry (5000·t + p, k) of the aggregated features. -/
theorem meanBlock0 (c : Dev nD) (t : Fin cfg0.N) (p : Fin 5000) (k : Fin 128) (r : Fin 50000) (hr : r.val = t.val * 5000 + p.val) :
    (iblk0 V c 0 t : Vec Ideal S5000x128 .f32) (ix2 p k) = (V c main_v21 : Cert.Sage.Arr 50000 128) (ix2 r k) := by
  obtain ⟨e0, e1, -⟩ := blockIndex0 t
  unfold iblk0
  rw [View.read_apply]
  show V c main_v21 _ = V c main_v21 _
  congr 1
  funext a; apply Fin.ext
  match a with
  | ⟨0, _⟩ => show win0_0.index t 0 * 5000 + 1 * p.val = r.val; omega
  | ⟨1, _⟩ => show win0_0.index t 1 * 128 + 1 * k.val = k.val; omega

/-- Entry (p, k) of the node-feature block at point t is entry (5000·t + p, k) of the node features. -/
theorem selfBlock0 (c : Dev nD) (t : Fin cfg0.N) (p : Fin 5000) (k : Fin 128) (r : Fin 50000) (hr : r.val = t.val * 5000 + p.val) :
    (iblk0 V c 1 t : Vec Ideal S5000x128 .f32) (ix2 p k) = (V c main_arg0 : Cert.Sage.Arr 50000 128) (ix2 r k) := by
  obtain ⟨-, -, e0, e1, -⟩ := blockIndex0 t
  unfold iblk0
  rw [View.read_apply]
  show V c main_arg0 _ = V c main_arg0 _
  congr 1
  funext a; apply Fin.ext
  match a with
  | ⟨0, _⟩ => show win0_1.index t 0 * 5000 + 1 * p.val = r.val; omega
  | ⟨1, _⟩ => show win0_1.index t 1 * 128 + 1 * k.val = k.val; omega

/-- The first weight block is the whole first weight matrix, at every point. -/
theorem wlBlock0 (c : Dev nD) (t : Fin cfg0.N) (k : Fin 128) (q : Fin 128) :
    (iblk0 V c 2 t : Vec Ideal S128x128 .f32) (ix2 k q) = (V c main_v22 : Cert.Sage.Arr 128 128) (ix2 k q) := by
  obtain ⟨-, -, -, -, e0, e1, -⟩ := blockIndex0 t
  unfold iblk0
  rw [View.read_apply]
  show V c main_v22 _ = V c main_v22 _
  congr 1
  funext a; apply Fin.ext
  match a with
  | ⟨0, _⟩ => show win0_2.index t 0 * 128 + 1 * k.val = k.val; omega
  | ⟨1, _⟩ => show win0_2.index t 1 * 128 + 1 * q.val = q.val; omega

/-- The bias block is the whole bias row, at every point. -/
theorem biasBlock0 (c : Dev nD) (t : Fin cfg0.N) (q : Fin 128) :
    (iblk0 V c 3 t : Vec Ideal S1x128 .f32) (ix2 0 q) = (V c main_v24 : Cert.Sage.Arr 1 128) (ix2 0 q) := by
  obtain ⟨-, -, -, -, -, -, e0, e1, -⟩ := blockIndex0 t
  unfold iblk0
  rw [View.read_apply]
  show V c main_v24 _ = V c main_v24 _
  congr 1
  funext a; apply Fin.ext
  match a with
  | ⟨0, _⟩ => show win0_3.index t 0 * 1 + 1 * (0 : Fin 1).val = (0 : Fin 1).val; omega
  | ⟨1, _⟩ => show win0_3.index t 1 * 128 + 1 * q.val = q.val; omega

/-- The second weight block is the whole second weight matrix, at every point. -/
theorem wrBlock0 (c : Dev nD) (t : Fin cfg0.N) (k : Fin 128) (q : Fin 128) :
    (iblk0 V c 4 t : Vec Ideal S128x128 .f32) (ix2 k q) = (V c main_v23 : Cert.Sage.Arr 128 128) (ix2 k q) := by
  obtain ⟨-, -, -, -, -, -, -, -, e0, e1, -⟩ := blockIndex0 t
  unfold iblk0
  rw [View.read_apply]
  show V c main_v23 _ = V c main_v23 _
  congr 1
  funext a; apply Fin.ext
  match a with
  | ⟨0, _⟩ => show win0_4.index t 0 * 128 + 1 * k.val = k.val; omega
  | ⟨1, _⟩ => show win0_4.index t 1 * 128 + 1 * q.val = q.val; omega

/-- Entry (p, q) of the result block at point t sits at entry (5000·t + p, q) of the result array. -/
theorem outBlock0 (t : Fin cfg0.N) (p : Fin 5000) (q : Fin 128) (r : Fin 50000) (hr : r.val = t.val * 5000 + p.val) :
    ((cfg0.win 5).blk t).view.emb (ix2 p q) = (ix2 r q : S50000x128.Idx) := by
  obtain ⟨-, -, -, -, -, -, -, -, -, -, e0, e1⟩ := blockIndex0 t
  funext a; apply Fin.ext
  match a with
  | ⟨0, _⟩ => show win0_5.index t 0 * 5000 + 1 * p.val = r.val; omega
  | ⟨1, _⟩ => show win0_5.index t 1 * 128 + 1 * q.val = q.val; omega

/-- What point t writes back is block t of the layer's dense stage of the entry arrays: the stored block at (p, q) is
    the layer's formula over the point's blocks, and each block entry is the array entry at row 5000·t + p. -/
theorem flushed_eq0 (c : Dev nD) (t : Fin cfg0.N) :
    (dat0 V c).flushed 5 t = ((cfg0.win 5).blk t).view.read (Elt Ideal)
      (Cert.Sage.layer 128 Cert.Sage.relu (V c main_v21) (V c main_arg0) (V c main_v22) (fun q => V c main_v24 (ix2 0 q)) (V c main_v23)) := by
  show (cfg0.win 5).cut (grid0.coords t) ((dat0 V c).after 5 t) = _
  rw [after0_5]
  unfold out0_5
  rw [View.canon_unit_zero zeroOffsets0]
  simp only [View.ld_unit_zero (S := S5000x128) zeroOffsets0, View.ld_unit_zero (S := S128x128) zeroOffsets0, View.ld_unit_zero (S := S1x128) zeroOffsets0]
  funext j
  obtain ⟨p, q, rfl⟩ : ∃ (p : Fin 5000) (q : Fin 128), j = ix2 p q := ⟨j 0, j 1, eq_ix2 j⟩
  refine (pay0_apply _ _ _ _ _ p q).trans ?_
  have ht : t.val < 10 := lt_of_lt_of_eq t.isLt N_0
  have hr : t.val * 5000 + p.val < 50000 := by have := p.isLt; omega
  rw [View.read_apply, outBlock0 t p q ⟨t.val * 5000 + p.val, hr⟩ rfl, Cert.Sage.layer_apply]
  unfold Cert.Sage.cell
  simp only [meanBlock0 V c t p _ ⟨t.val * 5000 + p.val, hr⟩ rfl, selfBlock0 V c t p _ ⟨t.val * 5000 + p.val, hr⟩ rfl,
    wlBlock0 V c t, wrBlock0 V c t, biasBlock0 V c t, cast_eq]

/-- An entry of the result array is in point t's block iff each coordinate is in the block's range on its axis. -/
theorem mem_blk0 (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v25).slice (win0_5.rect t)).set ↔ _
  rw [View.set_slice_whole, Rect.mem_set_unit]
  exact Iff.rfl

/-- Every entry of the result array is in a written block: row r falls in the block of point r / 5000. -/
theorem cover0 (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  have hN : cfg0.N = 10 := N_0
  let t : Fin cfg0.N := ⟨(i 0).val / 5000, by rw [hN]; omega⟩
  obtain ⟨-, -, -, -, -, -, -, -, -, -, e0, e1⟩ := blockIndex0 t
  have e0' : win0_5.index t (0 : Fin 2) = (i 0).val / 5000 := e0
  refine ⟨t, flush0_5 t, ?_⟩
  rw [mem_blk0]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- After region 0 its result array is the layer's dense stage of the arrays at the region's entry. -/
theorem final0 (c : Dev nD) :
    (dat0 V c).arrAt 5 cfg0.N
      = Cert.Sage.layer 128 Cert.Sage.relu (V c main_v21) (V c main_arg0) (V c main_v22) (fun q => V c main_v24 (ix2 0 q)) (V c main_v23) :=
  (dat0 V c).arrAt_eq_of_cover 5 _ (fun t _ => flushed_eq0 V c t) cover0

end Cert.KernelIdeal.Hand

end
-- ==== Proof.Region1.lean ====
/-
  Region 1's result array as one function of the arrays the region finds.

  The grid has ten points; point t reads rows 5000·t … 5000·t + 4999 of the aggregated features and of the node
  features, the whole of both weight matrices and of the bias row, and writes back rows 5000·t … 5000·t + 4999 of the
  result. The ten written blocks tile the result array, so after the region the array holds the layer's dense stage
  of the entry arrays, entry by entry.

  The steps. (1) The block index of every window at every point, decided once over the ten points: the two feature
  windows and the result window are at block (t, 0), the weight windows and the bias window at block (0, 0). (2) An
  entry of a block is the array's entry at block index × block extent + the entry's coordinate inside the block, axis
  by axis; so entry (p, k) of a feature block is the array's entry (5000·t + p, k), and a weight or bias block is its
  whole array. (3) What point t stores is, at (p, q), the layer's formula over its blocks; rewriting each block entry by
  (2) gives the layer's dense stage at (5000·t + p, q), which is the entry of the result array under (p, q) of the
  result block. (4) Row r of the result array lies in the block of point r / 5000, so the ten blocks cover the array,
  and an array whose every written block is the block of one function ends holding that function.
-/
import proofs.«181779_j2972117368898_1_alg».proof.Proof.Gen.KernelIdeal.Frame
import proofs.«181779_j2972117368898_1_alg».proof.Proof.KBody
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The offsets of a whole-block rectangle are zero on both axes. -/
theorem zeroOffsets1 : (![0, 0] : Fin 2 → Nat) = fun _ => 0 := funext fun a => by fin_cases a <;> rfl

/-- The block index of each window at each of the ten points: the feature windows and the result window sit at
    block (t, 0); the two weight windows and the bias window at block (0, 0). -/
theorem blockIndex1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Entry (p, k) of the aggregated-feature block at point t is entry (5000·t + p, k) of the aggregated features. -/
theorem meanBlock1 (c : Dev nD) (t : Fin cfg1.N) (p : Fin 5000) (k : Fin 128) (r : Fin 50000) (hr : r.val = t.val * 5000 + p.val) :
    (iblk1 V c 0 t : Vec Ideal S5000x128 .f32) (ix2 p k) = (V c main_v37 : Cert.Sage.Arr 50000 128) (ix2 r k) := by
  obtain ⟨e0, e1, -⟩ := blockIndex1 t
  unfold iblk1
  rw [View.read_apply]
  show V c main_v37 _ = V c main_v37 _
  congr 1
  funext a; apply Fin.ext
  match a with
  | ⟨0, _⟩ => show win1_0.index t 0 * 5000 + 1 * p.val = r.val; omega
  | ⟨1, _⟩ => show win1_0.index t 1 * 128 + 1 * k.val = k.val; omega

/-- Entry (p, k) of the node-feature block at point t is entry (5000·t + p, k) of the node features. -/
theorem selfBlock1 (c : Dev nD) (t : Fin cfg1.N) (p : Fin 5000) (k : Fin 128) (r : Fin 50000) (hr : r.val = t.val * 5000 + p.val) :
    (iblk1 V c 1 t : Vec Ideal S5000x128 .f32) (ix2 p k) = (V c main_v25 : Cert.Sage.Arr 50000 128) (ix2 r k) := by
  obtain ⟨-, -, e0, e1, -⟩ := blockIndex1 t
  unfold iblk1
  rw [View.read_apply]
  show V c main_v25 _ = V c main_v25 _
  congr 1
  funext a; apply Fin.ext
  match a with
  | ⟨0, _⟩ => show win1_1.index t 0 * 5000 + 1 * p.val = r.val; omega
  | ⟨1, _⟩ => show win1_1.index t 1 * 128 + 1 * k.val = k.val; omega

/-- The first weight block is the whole first weight matrix, at every point. -/
theorem wlBlock1 (c : Dev nD) (t : Fin cfg1.N) (k : Fin 128) (q : Fin 64) :
    (iblk1 V c 2 t : Vec Ideal S128x64 .f32) (ix2 k q) = (V c main_v38 : Cert.Sage.Arr 128 64) (ix2 k q) := by
  obtain ⟨-, -, -, -, e0, e1, -⟩ := blockIndex1 t
  unfold iblk1
  rw [View.read_apply]
  show V c main_v38 _ = V c main_v38 _
  congr 1
  funext a; apply Fin.ext
  match a with
  | ⟨0, _⟩ => show win1_2.index t 0 * 128 + 1 * k.val = k.val; omega
  | ⟨1, _⟩ => show win1_2.index t 1 * 64 + 1 * q.val = q.val; omega

/-- The bias block is the whole bias row, at every point. -/
theorem biasBlock1 (c : Dev nD) (t : Fin cfg1.N) (q : Fin 64) :
    (iblk1 V c 3 t : Vec Ideal S1x64 .f32) (ix2 0 q) = (V c main_v40 : Cert.Sage.Arr 1 64) (ix2 0 q) := by
  obtain ⟨-, -, -, -, -, -, e0, e1, -⟩ := blockIndex1 t
  unfold iblk1
  rw [View.read_apply]
  show V c main_v40 _ = V c main_v40 _
  congr 1
  funext a; apply Fin.ext
  match a with
  | ⟨0, _⟩ => show win1_3.index t 0 * 1 + 1 * (0 : Fin 1).val = (0 : Fin 1).val; omega
  | ⟨1, _⟩ => show win1_3.index t 1 * 64 + 1 * q.val = q.val; omega

/-- The second weight block is the whole second weight matrix, at every point. -/
theorem wrBlock1 (c : Dev nD) (t : Fin cfg1.N) (k : Fin 128) (q : Fin 64) :
    (iblk1 V c 4 t : Vec Ideal S128x64 .f32) (ix2 k q) = (V c main_v39 : Cert.Sage.Arr 128 64) (ix2 k q) := by
  obtain ⟨-, -, -, -, -, -, -, -, e0, e1, -⟩ := blockIndex1 t
  unfold iblk1
  rw [View.read_apply]
  show V c main_v39 _ = V c main_v39 _
  congr 1
  funext a; apply Fin.ext
  match a with
  | ⟨0, _⟩ => show win1_4.index t 0 * 128 + 1 * k.val = k.val; omega
  | ⟨1, _⟩ => show win1_4.index t 1 * 64 + 1 * q.val = q.val; omega

/-- Entry (p, q) of the result block at point t sits at entry (5000·t + p, q) of the result array. -/
theorem outBlock1 (t : Fin cfg1.N) (p : Fin 5000) (q : Fin 64) (r : Fin 50000) (hr : r.val = t.val * 5000 + p.val) :
    ((cfg1.win 5).blk t).view.emb (ix2 p q) = (ix2 r q : S50000x64.Idx) := by
  obtain ⟨-, -, -, -, -, -, -, -, -, -, e0, e1⟩ := blockIndex1 t
  funext a; apply Fin.ext
  match a with
  | ⟨0, _⟩ => show win1_5.index t 0 * 5000 + 1 * p.val = r.val; omega
  | ⟨1, _⟩ => show win1_5.index t 1 * 64 + 1 * q.val = q.val; omega

/-- What point t writes back is block t of the layer's dense stage of the entry arrays: the stored block at (p, q) is
    the layer's formula over the point's blocks, and each block entry is the array entry at row 5000·t + p. -/
theorem flushed_eq1 (c : Dev nD) (t : Fin cfg1.N) :
    (dat1 V c).flushed 5 t = ((cfg1.win 5).blk t).view.read (Elt Ideal)
      (Cert.Sage.layer 64 id (V c main_v37) (V c main_v25) (V c main_v38) (fun q => V c main_v40 (ix2 0 q)) (V c main_v39)) := by
  show (cfg1.win 5).cut (grid1.coords t) ((dat1 V c).after 5 t) = _
  rw [after1_5]
  unfold out1_5
  rw [View.canon_unit_zero zeroOffsets1]
  simp only [View.ld_unit_zero (S := S5000x128) zeroOffsets1, View.ld_unit_zero (S := S128x64) zeroOffsets1, View.ld_unit_zero (S := S1x64) zeroOffsets1]
  funext j
  obtain ⟨p, q, rfl⟩ : ∃ (p : Fin 5000) (q : Fin 64), j = ix2 p q := ⟨j 0, j 1, eq_ix2 j⟩
  refine (pay1_apply _ _ _ _ _ p q).trans ?_
  have ht : t.val < 10 := lt_of_lt_of_eq t.isLt N_1
  have hr : t.val * 5000 + p.val < 50000 := by have := p.isLt; omega
  rw [View.read_apply, outBlock1 t p q ⟨t.val * 5000 + p.val, hr⟩ rfl, Cert.Sage.layer_apply]
  unfold Cert.Sage.cell
  simp only [meanBlock1 V c t p _ ⟨t.val * 5000 + p.val, hr⟩ rfl, selfBlock1 V c t p _ ⟨t.val * 5000 + p.val, hr⟩ rfl,
    wlBlock1 V c t, wrBlock1 V c t, biasBlock1 V c t, cast_eq, id]

/-- An entry of the result array is in point t's block iff each coordinate is in the block's range on its axis. -/
theorem mem_blk1 (t : Fin cfg1.N) (i : S50000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v41).slice (win1_5.rect t)).set ↔ _
  rw [View.set_slice_whole, Rect.mem_set_unit]
  exact Iff.rfl

/-- Every entry of the result array is in a written block: row r falls in the block of point r / 5000. -/
theorem cover1 (i : S50000x64.Idx) : ∃ t : Fin cfg1.N, (cfg1.win 5).flush t = true ∧ i ∈ ((cfg1.win 5).blk t).view.set := by
  have hi0 : (i 0).val < 50000 := (i 0).isLt
  have hi1 : (i 1).val < 64 := (i 1).isLt
  have hN : cfg1.N = 10 := N_1
  let t : Fin cfg1.N := ⟨(i 0).val / 5000, by rw [hN]; omega⟩
  obtain ⟨-, -, -, -, -, -, -, -, -, -, e0, e1⟩ := blockIndex1 t
  have e0' : win1_5.index t (0 : Fin 2) = (i 0).val / 5000 := e0
  refine ⟨t, flush1_5 t, ?_⟩
  rw [mem_blk1]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 64 ≤ (i 1).val ∧ (i 1).val < win1_5.index t (1 : Fin 2) * 64 + 64; omega

/-- After region 1 its result array is the layer's dense stage of the arrays at the region's entry. -/
theorem final1 (c : Dev nD) :
    (dat1 V c).arrAt 5 cfg1.N
      = Cert.Sage.layer 64 id (V c main_v37) (V c main_v25) (V c main_v38) (fun q => V c main_v40 (ix2 0 q)) (V c main_v39) :=
  (dat1 V c).arrAt_eq_of_cover 5 _ (fun t _ => flushed_eq1 V c t) cover1

end Cert.KernelIdeal.Hand

end
-- ==== Proof.KValue.lean ====
/-
  The kernel program's result as the two layers' dense stages of the argument arrays.

  The second region's result array is the output layer's dense stage of the arrays it finds; those are the aggregated
  hidden features, the hidden features themselves — the first region's result, which is the hidden layer's dense stage
  of the aggregated input features and the input features —, and the transposed weights and the bias of each layer.
-/
import proofs.«181779_j2972117368898_1_alg».proof.Proof.KRun
import proofs.«181779_j2972117368898_1_alg».proof.Proof.KHost
import proofs.«181779_j2972117368898_1_alg».proof.Proof.Region0
import proofs.«181779_j2972117368898_1_alg».proof.Proof.Region1

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx

/-- The hidden features as a function of the arguments' contents. -/
def hidden (x0 : S50000x128.Idx → EReal) (x1 : S2x600000.Idx → BitVec 32) (x2 : S128x128.Idx → EReal) (x3 : S128.Idx → EReal)
    (x4 : S128x128.Idx → EReal) : Cert.Sage.Arr 50000 128 :=
  Cert.Sage.layer 128 Cert.Sage.relu (Cert.ReferenceIdeal.Read.val_main_v21 (F := Ideal) x0 x1) x0
    (Cert.ReferenceIdeal.Read.val_main_v22 (F := Ideal) x2) (fun q => x3 (ix1 q)) (Cert.ReferenceIdeal.Read.val_main_v27 (F := Ideal) x4)

/-- The network's result as a function of the arguments' contents. -/
def network (x0 : S50000x128.Idx → EReal) (x1 : S2x600000.Idx → BitVec 32) (x2 : S128x128.Idx → EReal) (x3 : S128.Idx → EReal)
    (x4 : S128x128.Idx → EReal) (x5 : S64x128.Idx → EReal) (x6 : S64.Idx → EReal) (x7 : S64x128.Idx → EReal) : Cert.Sage.Arr 50000 64 :=
  Cert.Sage.layer 64 id (Cert.ReferenceIdeal.Read.val_main_v21 (F := Ideal) (hidden x0 x1 x2 x3 x4) x1) (hidden x0 x1 x2 x3 x4)
    (Cert.ReferenceIdeal.Read.val_main_v49 (F := Ideal) x5) (fun q => x6 (ix1 q)) (Cert.ReferenceIdeal.Read.val_main_v54 (F := Ideal) x7)

variable (m : (ℓ : Loc nD τ sig) → Buf (Elt Ideal) ℓ) (ρ : Dev nD → PrngReg)

/-- After the first region the hidden features' array holds the hidden layer's dense stage of the arguments. -/
theorem hidden_value (c : Dev nD) :
    W2 m ρ c (Proc.devRef .tc main_v25)
      = hidden (m ((c : Thread nD τ).loc main_arg0)) (m ((c : Thread nD τ).loc main_arg1)) (m ((c : Thread nD τ).loc main_arg2))
          (m ((c : Thread nD τ).loc main_arg3)) (m ((c : Thread nD τ).loc main_arg4)) := by
  have h1 : W2 m ρ c (Proc.devRef .tc main_v25) = (dat0 (V1 m ρ) c).arrAt 5 cfg0.N := W2_arr m ρ c 5
  rw [h1, final0 (V1 m ρ) c, V1_mean, V1_self, V1_wl, V1_wr]
  unfold hidden
  exact congrArg (fun b => Cert.Sage.layer 128 Cert.Sage.relu _ _ _ b _) (funext fun q => V1_bias m ρ c q)

/-- After the second region the result array holds the network's result of the arguments. -/
theorem result_value (c : Dev nD) :
    W4 m ρ c (Proc.devRef .tc main_v41)
      = network (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) := by
  have h1 : W4 m ρ c (Proc.devRef .tc main_v41) = (dat1 (V3 m ρ) c).arrAt 5 cfg1.N := W4_arr m ρ c 5
  rw [h1, final1 (V3 m ρ) c, V3_mean, V3_self, V3_wl, V3_wr, hidden_value]
  unfold network
  exact congrArg (fun b => Cert.Sage.layer 64 id _ _ _ b _) (funext fun q => V3_bias m ρ c q)

/-- The kernel program's run with its result named. -/
theorem run_network : θ_run defs (onTc (τ := τ) (main (F := Ideal))) ⟨m, fun _ => 0, ρ⟩ (fun r => ∀ c : Dev nD,
      r.2.mem ((c.tc : Thread nD τ).loc main_v41)
        = network (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c).1.trans (result_value m ρ c), (h c).2⟩) (run_value m ρ)

end Cert.KernelIdeal.Hand

end
-- ==== Proof.RefValue.lean ====
/-
  The reference's result as the two layers' dense stages, entry by entry.

  Each layer of the reference is a product with the transposed left weights, plus the broadcast bias, plus a product
  with the transposed right weights (then the rectifier, in the hidden layer). At an entry each product is the sum over
  the contracted index, and since addition of extended reals is commutative and associative the bias may be added last.
  The aggregation (gather, scatter-add, division by the clamped degree) is carried as one function of the features
  it gathers from: the second layer applies the same function to the hidden features.
-/
import proofs.«181779_j2972117368898_1_alg».proof.Proof.Gen.ReferenceIdeal.Read
import proofs.«181779_j2972117368898_1_alg».proof.Proof.LibDense
import proofs.«181779_j2972117368898_1_alg».proof.Proof.Layer
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.Hand

open Cert.ReferenceIdeal Cert.ReferenceIdeal.Gen Cert.ReferenceIdeal.Read
open Idealize.ShloMosaic Idealize.ShloMosaic.ValueIdx

variable (x0 : (⟨S50000x128, .f32⟩ : BufTy).Contents (Elt Ideal)) (x1 : (⟨S2x600000, .i32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x5 : (⟨S64x128, .f32⟩ : BufTy).Contents (Elt Ideal))
  (x6 : (⟨S64, .f32⟩ : BufTy).Contents (Elt Ideal)) (x7 : (⟨S64x128, .f32⟩ : BufTy).Contents (Elt Ideal))

/-- The hidden features: the hidden layer's dense stage of the aggregated input features and the input features. -/
theorem hidden_eq :
    val_main_v30 (F := Ideal) x0 x1 x2 x3 x4
      = Cert.Sage.layer 128 Cert.Sage.relu (val_main_v21 (F := Ideal) x0 x1) x0 (val_main_v22 (F := Ideal) x2) (fun q => x3 (ix1 q)) (val_main_v27 (F := Ideal) x4) := by
  -- At entry (r, j): read every stage at its index, down to the operands.
  funext i
  obtain ⟨r, j, rfl⟩ : ∃ (r : Fin 50000) (j : Fin 128), i = ix2 r j := ⟨i 0, i 1, eq_ix2 i⟩
  rw [val_main_v30_apply, val_main_v29_apply, val_main_v26_apply, val_main_v23_apply, val_main_v28_apply,
    val_main_v25_apply, val_main_v24_apply, val_main_call0_v0_apply, val_main_call0_cst_apply, Cert.Sage.layer_apply]
  -- The products read the left operand at (r, k) and the right at (k, j); the broadcast bias reads b at j.
  have hl : ∀ k : Fin 128, lidx_main_v23 (ix2 r j) k = ix2 r k := fun k =>
    funext fun a => Fin.ext (by match a with | ⟨0, _⟩ => rfl | ⟨1, _⟩ => rfl)
  have hr : ∀ k : Fin 128, ridx_main_v23 (ix2 r j) k = ix2 k j := fun k =>
    funext fun a => Fin.ext (by match a with | ⟨0, _⟩ => rfl | ⟨1, _⟩ => rfl)
  have hl' : ∀ k : Fin 128, lidx_main_v28 (ix2 r j) k = ix2 r k := fun k =>
    funext fun a => Fin.ext (by match a with | ⟨0, _⟩ => rfl | ⟨1, _⟩ => rfl)
  have hr' : ∀ k : Fin 128, ridx_main_v28 (ix2 r j) k = ix2 k j := fun k =>
    funext fun a => Fin.ext (by match a with | ⟨0, _⟩ => rfl | ⟨1, _⟩ => rfl)
  have hb : idx_main_v24 (idx_main_v25 (ix2 r j)) = ix1 j :=
    funext fun a => Fin.ext (by match a with | ⟨0, _⟩ => rfl)
  simp only [hl, hr, hl', hr', hb]
  -- (p + b) + q = (p + q) + b under the rectifier.
  unfold Cert.Sage.cell Cert.Sage.relu
  exact congrArg (fun v => max v (Ideal.ofBits .f32 0x00000000#32)) (Cert.Sage.bias_last _ _ _)

/-- The second aggregation is the first one's function applied to the hidden features. -/
theorem mean2_eq :
    val_main_v48 (F := Ideal) x0 x1 x2 x3 x4 = val_main_v21 (F := Ideal) (val_main_v30 (F := Ideal) x0 x1 x2 x3 x4) x1 := by
  -- Both sides are one chain of whole-array operations on the hidden features and the edge list: the same index
  -- normalisation, gather, scatter-add into zeros, clamped degree and division, stage for stage.
  unfold val_main_v48 val_main_v47 val_main_v46 val_main_v45 val_main_v44 val_main_v43 val_main_v42 val_main_v41
    val_main_v40 val_main_v39 val_main_v38 val_main_v37 val_main_v36 val_main_v35 val_main_v34 val_main_v33 val_main_v32
    val_main_v31 val_main_cst_9 val_main_cst_8 val_main_cst_7 val_main_cst_6 val_main_c_5 val_main_c_4
  unfold val_main_v21 val_main_v20 val_main_v19 val_main_v18 val_main_v17 val_main_v16 val_main_v15 val_main_v14
    val_main_v13 val_main_v12 val_main_v11 val_main_v10 val_main_v9 val_main_v8 val_main_v7 val_main_v6 val_main_v5
    val_main_v4 val_main_cst_3 val_main_cst_2 val_main_cst_1 val_main_cst val_main_c_0 val_main_c
  rfl

/-- The result: the output layer's dense stage of the aggregated hidden features and the hidden features. -/
theorem out_eq :
    val_main_v56 (F := Ideal) x0 x1 x2 x3 x4 x5 x6 x7
      = Cert.Sage.layer 64 id (val_main_v48 (F := Ideal) x0 x1 x2 x3 x4) (val_main_v30 (F := Ideal) x0 x1 x2 x3 x4)
          (val_main_v49 (F := Ideal) x5) (fun q => x6 (ix1 q)) (val_main_v54 (F := Ideal) x7) := by
  -- At entry (r, j): read every stage at its index, down to the operands.
  funext i
  obtain ⟨r, j, rfl⟩ : ∃ (r : Fin 50000) (j : Fin 64), i = ix2 r j := ⟨i 0, i 1, eq_ix2 i⟩
  rw [val_main_v56_apply, val_main_v53_apply, val_main_v50_apply, val_main_v55_apply,
    val_main_v52_apply, val_main_v51_apply, Cert.Sage.layer_apply]
  -- The products read the left operand at (r, k) and the right at (k, j); the broadcast bias reads b at j.
  have hl : ∀ k : Fin 128, lidx_main_v50 (ix2 r j) k = ix2 r k := fun k =>
    funext fun a => Fin.ext (by match a with | ⟨0, _⟩ => rfl | ⟨1, _⟩ => rfl)
  have hr : ∀ k : Fin 128, ridx_main_v50 (ix2 r j) k = ix2 k j := fun k =>
    funext fun a => Fin.ext (by match a with | ⟨0, _⟩ => rfl | ⟨1, _⟩ => rfl)
  have hl' : ∀ k : Fin 128, lidx_main_v55 (ix2 r j) k = ix2 r k := fun k =>
    funext fun a => Fin.ext (by match a with | ⟨0, _⟩ => rfl | ⟨1, _⟩ => rfl)
  have hr' : ∀ k : Fin 128, ridx_main_v55 (ix2 r j) k = ix2 k j := fun k =>
    funext fun a => Fin.ext (by match a with | ⟨0, _⟩ => rfl | ⟨1, _⟩ => rfl)
  have hb : idx_main_v51 (idx_main_v52 (ix2 r j)) = ix1 j :=
    funext fun a => Fin.ext (by match a with | ⟨0, _⟩ => rfl)
  simp only [hl, hr, hl', hr', hb]
  -- (p + b) + q = (p + q) + b.
  unfold Cert.Sage.cell
  exact Cert.Sage.bias_last _ _ _

end Cert.ReferenceIdeal.Hand

end
-- ==== Proof.lean ====
/-
  A two-layer GraphSAGE forward pass: two tiled kernel regions against the plain reference.

  Each layer aggregates the features of a node's in-neighbours (gather by source, scatter-add by destination, divided
  by the degree clamped below at one) on the host, in both programs by the same operations, and then computes
      post ( mean · Wlᵀ + x · Wrᵀ + b )
  — in the kernel program by a region over ten blocks of 5000 nodes, the bias added last; in the reference by two whole
  products, the bias added between them. On the extended reals addition is commutative and associative, a change of
  float format is the identity and a product into a zero accumulator is the sum over the contracted index, so both
  programs end with the same function of the arguments, entry by entry: `Cert.KernelIdeal.Hand.network`.
  The frames of the two kernel programs are the generated ones; the reference's frame is its generated run with the
  result dropped; the idealization rewrote nothing.
-/
import proofs.«181779_j2972117368898_1_alg».proof.Defs
import proofs.«181779_j2972117368898_1_alg».proof.Proof.Gen.Kernel
import proofs.«181779_j2972117368898_1_alg».proof.Proof.Gen.Kernel.Skeleton
import proofs.«181779_j2972117368898_1_alg».proof.Proof.Gen.Kernel.Launch
import proofs.«181779_j2972117368898_1_alg».proof.Proof.Gen.Kernel.Points
import proofs.«181779_j2972117368898_1_alg».proof.Proof.Gen.Kernel.Frame
import proofs.«181779_j2972117368898_1_alg».proof.Proof.Gen.KernelIdeal
import proofs.«181779_j2972117368898_1_alg».proof.Proof.Gen.KernelIdeal.Skeleton
import proofs.«181779_j2972117368898_1_alg».proof.Proof.Gen.KernelIdeal.Launch
import proofs.«181779_j2972117368898_1_alg».proof.Proof.Gen.KernelIdeal.Points
import proofs.«181779_j2972117368898_1_alg».proof.Proof.Gen.KernelIdeal.Frame
import proofs.«181779_j2972117368898_1_alg».proof.Proof.Gen.ReferenceIdeal
import proofs.«181779_j2972117368898_1_alg».proof.Proof.Gen.Pre_finite_inputs
import proofs.«181779_j2972117368898_1_alg».proof.Proof.Gen.ReferenceIdeal.Run
import proofs.«181779_j2972117368898_1_alg».proof.Proof.Gen.ReferenceIdeal.Read
import proofs.«181779_j2972117368898_1_alg».proof.Proof.KValue
import proofs.«181779_j2972117368898_1_alg».proof.Proof.RefValue
import Idealize.ShloMosaic.Adequacy
import Idealize.ShloMosaic.Init

noncomputable section

namespace Cert.Proof

open Idealize.ShloMosaic Idealize.SL.Sem

/-- The reference's result term is the network's result of its arguments: the output layer's stage of the
    aggregated hidden features, the hidden features being the hidden layer's stage of the aggregated inputs. -/
theorem reference_network (m : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v56 (F := Ideal) m c
      = Cert.KernelIdeal.Hand.network
          (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg1))
          (m ((c.tc : Thread Cert.ReferenceIdeal.nD Cert.ReferenceIdeal.τ).loc Cert.ReferenceIdeal.main_arg2))
          (m ((c.tc : Thread Cert.ReferenceIdeal.nD Cert.ReferenceIdeal.τ).loc Cert.ReferenceIdeal.main_arg3))
          (m ((c.tc : Thread Cert.ReferenceIdeal.nD Cert.ReferenceIdeal.τ).loc Cert.ReferenceIdeal.main_arg4))
          (m ((c.tc : Thread Cert.ReferenceIdeal.nD Cert.ReferenceIdeal.τ).loc Cert.ReferenceIdeal.main_arg5))
          (m ((c.tc : Thread Cert.ReferenceIdeal.nD Cert.ReferenceIdeal.τ).loc Cert.ReferenceIdeal.main_arg6))
          (m ((c.tc : Thread Cert.ReferenceIdeal.nD Cert.ReferenceIdeal.τ).loc Cert.ReferenceIdeal.main_arg7)) := by
  rw [Cert.ReferenceIdeal.Read.val_main_v56_eq, Cert.ReferenceIdeal.Hand.out_eq, Cert.ReferenceIdeal.Hand.mean2_eq,
    Cert.ReferenceIdeal.Hand.hidden_eq]
  rfl

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the network's result of arguments that agree. -/
theorem algebraic : Cert.algebraic_KernelIdeal_ReferenceIdeal := by
  intro m ρ m' ρ' _ hagree
  refine ⟨_, Cert.KernelIdeal.Hand.run_network m ρ, ?_⟩
  refine (θ_run Cert.ReferenceIdeal.defs _ _).mono (fun _ h c => ⟨(h c).1.trans ?_, (h c).2⟩)
    (Cert.ReferenceIdeal.Value.run (F := Ideal) m' ρ')
  rw [reference_network m' c, (hagree c).1, (hagree c).2.1, (hagree c).2.2.1, (hagree c).2.2.2.1, (hagree c).2.2.2.2.1,
    (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
